-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024x25x3 : Shape := ⟨4, ![512, 1024, 25, 3]⟩
abbrev S_ : Shape := ⟨0, ![]⟩

class Facts : Prop where
  bcast_S_S512x1024x25x3 : S_.BroadcastsInDim S512x1024x25x3 (![] : Fin 0 → Fin S512x1024x25x3.rank)
  reducesTo_S512x1024x25x3_S_d0_1_2_3 : S512x1024x25x3.ReducesTo [0, 1, 2, 3] S_
  h_S_ : 0 < S_.numel

variable [Facts]

def fn {F : FTy → Type} [FloatOps F] (main_arg0 : FVec F S512x1024x25x3 .f32) : IVec S_ 1 :=
  let main_v0 : FVec F S512x1024x25x3 .f32 := Host.absf main_arg0
  let main_cst : FVec F S_ .f32 := constant S_ .f32 0x7F800000#32
  let main_v1 : FVec F S512x1024x25x3 .f32 := broadcastInDim S512x1024x25x3 ![] bcast_S_S512x1024x25x3 main_cst
  let main_v2 : IVec S512x1024x25x3 1 := cmpf .olt main_v0 main_v1
  let main_c : IVec S_ 1 := constantI S_ 1 1#1
  let main_v3 : IVec S_ 1 := (fun x v => Host.reduce IntOp.andi x v reducesTo_S512x1024x25x3_S_d0_1_2_3 h_S_) main_v2 main_c
  main_v3
-- ==== Kernel.lean ====
abbrev S512x1024x25x3 : Shape := ⟨4, ![512, 1024, 25, 3]⟩
abbrev S512x1024x75 : Shape := ⟨3, ![512, 1024, 75]⟩
abbrev S75 : Shape := ⟨1, ![75]⟩
abbrev S75x1 : Shape := ⟨2, ![75, 1]⟩
abbrev S_ : Shape := ⟨0, ![]⟩
abbrev S25 : Shape := ⟨1, ![25]⟩
abbrev S1x25 : Shape := ⟨2, ![1, 25]⟩
abbrev S75x25 : Shape := ⟨2, ![75, 25]⟩
abbrev S25x75 : Shape := ⟨2, ![25, 75]⟩
abbrev S4x1024x75 : Shape := ⟨3, ![4, 1024, 75]⟩
abbrev S4x1023x75 : Shape := ⟨3, ![4, 1023, 75]⟩
abbrev S4x1x75 : Shape := ⟨3, ![4, 1, 75]⟩
abbrev S4096x75 : Shape := ⟨2, ![4096, 75]⟩
abbrev S4096x25 : Shape := ⟨2, ![4096, 25]⟩
abbrev S4x1024x25 : Shape := ⟨3, ![4, 1024, 25]⟩

abbrev nBuf : Space → Nat
  | .hbm => 31
  | .vmem => 6
  | .smem => 0
  | _ => 0

abbrev bufTy : (tb : Table) → Fin (tcTables nBuf tb) → BufTy
  | .hbm, ⟨0, _⟩ => ⟨S512x1024x25x3, .f32⟩
  | .hbm, ⟨1, _⟩ => ⟨S512x1024x75, .f32⟩
  | .hbm, ⟨2, _⟩ => ⟨S75, .i32⟩
  | .hbm, ⟨3, _⟩ => ⟨S75x1, .i32⟩
  | .hbm, ⟨4, _⟩ => ⟨S_, .i32⟩
  | .hbm, ⟨5, _⟩ => ⟨S_, .i32⟩
  | .hbm, ⟨6, _⟩ => ⟨S75x1, .i32⟩
  | .hbm, ⟨7, _⟩ => ⟨S75x1, .i32⟩
  | .hbm, ⟨8, _⟩ => ⟨S75x1, .i32⟩
  | .hbm, ⟨9, _⟩ => ⟨S_, .i32⟩
  | .hbm, ⟨10, _⟩ => ⟨S75x1, .i32⟩
  | .hbm, ⟨11, _⟩ => ⟨S75x1, .i1⟩
  | .hbm, ⟨12, _⟩ => ⟨S75x1, .i32⟩
  | .hbm, ⟨13, _⟩ => ⟨S75x1, .i32⟩
  | .hbm, ⟨14, _⟩ => ⟨S_, .i32⟩
  | .hbm, ⟨15, _⟩ => ⟨S75x1, .i32⟩
  | .hbm, ⟨16, _⟩ => ⟨S75x1, .i1⟩
  | .hbm, ⟨17, _⟩ => ⟨S75x1, .i1⟩
  | .hbm, ⟨18, _⟩ => ⟨S_, .i32⟩
  | .hbm, ⟨19, _⟩ => ⟨S75x1, .i32⟩
  | .hbm, ⟨20, _⟩ => ⟨S75x1, .i32⟩
  | .hbm, ⟨21, _⟩ => ⟨S75x1, .i32⟩
  | .hbm, ⟨22, _⟩ => ⟨S25, .i32⟩
  | .hbm, ⟨23, _⟩ => ⟨S1x25, .i32⟩
  | .hbm, ⟨24, _⟩ => ⟨S75x25, .i32⟩
  | .hbm, ⟨25, _⟩ => ⟨S75x25, .i32⟩
  | .hbm, ⟨26, _⟩ => ⟨S75x25, .i1⟩
  | .hbm, ⟨27, _⟩ => ⟨S75x25, .f32⟩
  | .hbm, ⟨28, _⟩ => ⟨S25x75, .f32⟩
  | .hbm, ⟨29, _⟩ => ⟨S512x1024x75, .f32⟩
  | .hbm, ⟨30, _⟩ => ⟨S512x1024x25x3, .f32⟩
  | .local _ .vmem, ⟨0, _⟩ => ⟨S4x1024x75, .f32⟩
  | .local _ .vmem, ⟨1, _⟩ => ⟨S4x1024x75, .f32⟩
  | .local _ .vmem, ⟨2, _⟩ => ⟨S75x25, .f32⟩
  | .local _ .vmem, ⟨3, _⟩ => ⟨S25x75, .f32⟩
  | .local _ .vmem, ⟨4, _⟩ => ⟨S4x1024x75, .f32⟩
  | .local _ .vmem, ⟨5, _⟩ => ⟨S4x1024x75, .f32⟩
  | _, _ => ⟨S512x1024x25x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x75 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S75x25 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S25x75 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1024x75 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512x1024x25x3_S512x1024x75 : S512x1024x25x3.ShapeCasts S512x1024x75
  bcast_S75_S75x1_0 : S75.BroadcastsInDim S75x1 (![0] : Fin 1 → Fin S75x1.rank)
  bcast_S_S75x1 : S_.BroadcastsInDim S75x1 (![] : Fin 0 → Fin S75x1.rank)
  bcast_S25_S1x25_1 : S25.BroadcastsInDim S1x25 (![1] : Fin 1 → Fin S1x25.rank)
  bcast_S75x1_S75x25_0_1 : S75x1.BroadcastsInDim S75x25 (![0, 1] : Fin 2 → Fin S75x25.rank)
  bcast_S1x25_S75x25_0_1 : S1x25.BroadcastsInDim S75x25 (![0, 1] : Fin 2 → Fin S75x25.rank)
  transposes_S75x25_S25x75_1_0 : S75x25.Transposes [1, 0] S25x75
  inb_S4x1024x75_S4x1024x75_0_0_0 : ∀ a, (![0, 0, 0] : Fin 3 → Nat) a + S4x1024x75.size a ≤ S4x1024x75.size a
  h_S4x1024x75 : 0 < S4x1024x75.numel
  shapeCasts_S4x1024x75_S4x1024x75 : S4x1024x75.ShapeCasts S4x1024x75
  slices_S4x1024x75_o0_1_0_S4x1023x75 : S4x1024x75.Slices ![0, 1, 0] S4x1023x75
  slices_S4x1024x75_o0_1023_0_S4x1x75 : S4x1024x75.Slices ![0, 1023, 0] S4x1x75
  concatenates_S4x1023x75_S4x1x75_S4x1024x75_d1 : Shape.Concatenates [S4x1023x75, S4x1x75] S4x1024x75 1
  shapeCasts_S4x1024x75_S4096x75 : S4x1024x75.ShapeCasts S4096x75
  inb_S75x25_S75x25_0_0 : ∀ a, (![0, 0] : Fin 2 → Nat) a + S75x25.size a ≤ S75x25.size a
  h_S75x25 : 0 < S75x25.numel
  shapeCasts_S75x25_S75x25 : S75x25.ShapeCasts S75x25
  shapeCasts_S4096x25_S4x1024x25 : S4096x25.ShapeCasts S4x1024x25
  shapeCasts_S4x1024x25_S4096x25 : S4x1024x25.ShapeCasts S4096x25
  inb_S25x75_S25x75_0_0 : ∀ a, (![0, 0] : Fin 2 → Nat) a + S25x75.size a ≤ S25x75.size a
  h_S25x75 : 0 < S25x75.numel
  shapeCasts_S25x75_S25x75 : S25x75.ShapeCasts S25x75
  shapeCasts_S4096x75_S4x1024x75 : S4096x75.ShapeCasts S4x1024x75
  shapeCasts_S512x1024x75_S512x1024x25x3 : S512x1024x75.ShapeCasts S512x1024x25x3
  dot_S4096x75_S75x25_S4096x25_1_0_0_1_n_n_wf : DotDims.WF S4096x75 S75x25 S4096x25 [1] [0] [0] [1] [] []
  dot_S4096x25_S25x75_S4096x75_1_0_0_1_n_n_wf : DotDims.WF S4096x25 S25x75 S4096x75 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x75.size a ≤ S512x1024x75.size a
  hwx0_0 : ∀ i : grid0.Coords, EltTy.bits .f32 = 32 ∨ (Rect.block (s := S512x1024x75) S4x1024x75.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S75x25.size a ≤ S75x25.size a
  hwx0_1 : ∀ i : grid0.Coords, EltTy.bits .f32 = 32 ∨ (Rect.block (s := S75x25) S75x25.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S25x75.size a ≤ S25x75.size a
  hwx0_2 : ∀ i : grid0.Coords, EltTy.bits .f32 = 32 ∨ (Rect.block (s := S25x75) S25x75.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1024x75.size a ≤ S512x1024x75.size a
  hwx0_3 : ∀ i : grid0.Coords, EltTy.bits .f32 = 32 ∨ (Rect.block (s := S512x1024x75) S4x1024x75.size (cc0_transform_3 i) (hinb0_3 i)).WholeWords (EltTy.packing .f32)

variable [Facts₀]

def dot_S4096x75_S75x25_S4096x25_1_0_0_1_n_n : DotDims S4096x75 S75x25 S4096x25 where
  lhsContracting := [1]
  rhsContracting := [0]
  lhsNonContracting := [0]
  rhsNonContracting := [1]
  lhsBatch := []
  rhsBatch := []
  wf := dot_S4096x75_S75x25_S4096x25_1_0_0_1_n_n_wf
def dot_S4096x25_S25x75_S4096x75_1_0_0_1_n_n : DotDims S4096x25 S25x75 S4096x75 where
  lhsContracting := [1]
  rhsContracting := [0]
  lhsNonContracting := [0]
  rhsNonContracting := [1]
  lhsBatch := []
  rhsBatch := []
  wf := dot_S4096x25_S25x75_S4096x75_1_0_0_1_n_n_wf

abbrev win0_0 : Pipeline.Window sig grid0 :=
  Pipeline.Window.ofSpec (Memref.whole main_v0) S4x1024x75.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S75x25.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S25x75.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S4x1024x75.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x1024x25x3 : Shape := ⟨4, ![512, 1024, 25, 3]⟩
abbrev S512x1023x25x3 : Shape := ⟨4, ![512, 1023, 25, 3]⟩
abbrev S_ : Shape := ⟨0, ![]⟩
abbrev S512x1023x25 : Shape := ⟨3, ![512, 1023, 25]⟩
abbrev S512x1x25 : Shape := ⟨3, ![512, 1, 25]⟩
abbrev S512x1024x25 : Shape := ⟨3, ![512, 1024, 25]⟩
abbrev S512x1024x25x1 : Shape := ⟨4, ![512, 1024, 25, 1]⟩

abbrev nBuf : Space → Nat
  | .hbm => 15
  | .vmem => 0
  | .smem => 0
  | _ => 0

abbrev bufTy : (tb : Table) → Fin (tcTables nBuf tb) → BufTy
  | .hbm, ⟨0, _⟩ => ⟨S512x1024x25x3, .f32⟩
  | .hbm, ⟨1, _⟩ => ⟨S512x1023x25x3, .f32⟩
  | .hbm, ⟨2, _⟩ => ⟨S512x1023x25x3, .f32⟩
  | .hbm, ⟨3, _⟩ => ⟨S512x1023x25x3, .f32⟩
  | .hbm, ⟨4, _⟩ => ⟨S512x1023x25x3, .f32⟩
  | .hbm, ⟨5, _⟩ => ⟨S_, .f32⟩
  | .hbm, ⟨6, _⟩ => ⟨S512x1023x25, .f32⟩
  | .hbm, ⟨7, _⟩ => ⟨S512x1023x25, .f32⟩
  | .hbm, ⟨8, _⟩ => ⟨S512x1x25, .f32⟩
  | .hbm, ⟨9, _⟩ => ⟨S_, .f32⟩
  | .hbm, ⟨10, _⟩ => ⟨S512x1x25, .f32⟩
  | .hbm, ⟨11, _⟩ => ⟨S512x1024x25, .f32⟩
  | .hbm, ⟨12, _⟩ => ⟨S512x1024x25x1, .f32⟩
  | .hbm, ⟨13, _⟩ => ⟨S512x1024x25x3, .f32⟩
  | .hbm, ⟨14, _⟩ => ⟨S512x1024x25x3, .f32⟩
  | _, _ => ⟨S512x1024x25x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  slices_S512x1024x25x3_S512x1023x25x3_0_1_0_0 : S512x1024x25x3.Slices ![0, 1, 0, 0] S512x1023x25x3
  slices_S512x1024x25x3_S512x1023x25x3_0_0_0_0 : S512x1024x25x3.Slices ![0, 0, 0, 0] S512x1023x25x3
  reducesTo_S512x1023x25x3_S512x1023x25_d3 : S512x1023x25x3.ReducesTo [3] S512x1023x25
  h_S_ : 0 < S_.numel
  slices_S512x1023x25_S512x1x25_0_0_0 : S512x1023x25.Slices ![0, 0, 0] S512x1x25
  bcast_S_S512x1x25 : S_.BroadcastsInDim S512x1x25 (![] : Fin 0 → Fin S512x1x25.rank)
  concatenates_S512x1023x25_S512x1x25_S512x1024x25_d1 : Shape.Concatenates [S512x1023x25, S512x1x25] S512x1024x25 1
  bcast_S512x1024x25_S512x1024x25x1_0_1_2 : S512x1024x25.BroadcastsInDim S512x1024x25x1 (![0, 1, 2] : Fin 3 → Fin S512x1024x25x1.rank)
  bcast_S512x1024x25x1_S512x1024x25x3_0_1_2_3 : S512x1024x25x1.BroadcastsInDim S512x1024x25x3 (![0, 1, 2, 3] : Fin 4 → Fin S512x1024x25x3.rank)

variable [Facts₀]

class Facts : Prop extends Facts₀ where

variable [Facts]
-- ==== Proof.Spec.lean ====
/-
  The function both programs compute, over the extended reals.

  The input is an array x[b, s, n, c] of 512 sequences of 1024 frames, each frame 25 nodes with 3 coordinates.
  For a node n of frame s that has a successor frame (s < 1023) let

      d(b, s, n) = sqrt (sum over the 3 coordinates k of (x[b, s+1, n, k] - x[b, s, n, k])^2),

  the Euclidean distance the node moves from frame s to frame s+1; the last frame is paired with itself and moves
  by 0. The result adds that distance to each of the node's three coordinates:

      G x [b, s, n, c] = x[b, s, n, c] + d(b, s, n).

  `nxt s` is the successor frame, the last frame its own successor: with it the sum of squares `stepSq` is one
  expression for every frame, and at the last frame it is a sum of squares of differences `a - a`, which vanish
  when the entries are real numbers (`stepSq_last`): that is the only place finiteness of the input is used.
-/
import Idealize.ShloMosaic.PureOps.Ideal
import Idealize.ShloMosaic.Lib.ValueIdx

noncomputable section

namespace Cert.FrameStep

open Idealize.ShloMosaic Idealize.ShloMosaic.ValueIdx

/-- The successor of frame `s`; the last frame is its own successor. -/
def nxt (s : Fin 1024) : Fin 1024 := ⟨min (s.val + 1) 1023, by omega⟩

theorem nxt_val_of_lt {s : Fin 1024} (h : s.val < 1023) : (nxt s).val = s.val + 1 := by
  show min (s.val + 1) 1023 = s.val + 1; omega

theorem nxt_last {s : Fin 1024} (h : ¬ s.val < 1023) : nxt s = s := by
  apply Fin.ext; show min (s.val + 1) 1023 = s.val; have := s.isLt; omega

/-- The squared distance node `n` moves from frame `s` to its successor: the sum over the three coordinates of the
    squared coordinate differences. -/
def stepSq (x : (⟨4, ![512, 1024, 25, 3]⟩ : Shape).Idx → EReal) (b : Fin 512) (s : Fin 1024) (n : Fin 25) : EReal :=
  ∑ k : Fin 3, (x (ix4 b (nxt s) n k) - x (ix4 b s n k)) * (x (ix4 b (nxt s) n k) - x (ix4 b s n k))

/-- The result at coordinates: the entry plus the distance its node moves to the next frame, nothing at the last frame. -/
def Gat (x : (⟨4, ![512, 1024, 25, 3]⟩ : Shape).Idx → EReal) (b : Fin 512) (s : Fin 1024) (n : Fin 25) (c : Fin 3) : EReal :=
  x (ix4 b s n c) + (if s.val < 1023 then Ideal.sqrt (stepSq x b s n) else 0)

/-- The result array as one function of the input array. -/
def G (x : (⟨4, ![512, 1024, 25, 3]⟩ : Shape).Idx → EReal) : (⟨4, ![512, 1024, 25, 3]⟩ : Shape).Idx → EReal :=
  fun j => Gat x (j 0) (j 1) (j 2) (j 3)

theorem G_ix4 (x : (⟨4, ![512, 1024, 25, 3]⟩ : Shape).Idx → EReal) (b : Fin 512) (s : Fin 1024) (n : Fin 25) (c : Fin 3) :
    G x (ix4 b s n c) = Gat x b s n c := rfl

/-- A real number minus itself is zero (on the extended reals `⊤ - ⊤` is not). -/
theorem sub_self_of_real {a : EReal} (h : ∃ r : ℝ, a = (r : EReal)) : a - a = 0 := by
  obtain ⟨r, rfl⟩ := h
  rw [← EReal.coe_sub, sub_self, EReal.coe_zero]

/-- At the last frame every coordinate difference is `a - a`: for real entries the squared distance is zero. -/
theorem stepSq_last (x : (⟨4, ![512, 1024, 25, 3]⟩ : Shape).Idx → EReal) (hx : ∀ i, ∃ r : ℝ, x i = (r : EReal))
    (b : Fin 512) {s : Fin 1024} (h : ¬ s.val < 1023) (n : Fin 25) : stepSq x b s n = 0 := by
  unfold stepSq
  rw [nxt_last h]
  refine Finset.sum_eq_zero fun k _ => ?_
  rw [sub_self_of_real (hx _), zero_mul]

/-- The square root of zero is zero. -/
theorem sqrt_zero : Ideal.sqrt 0 = 0 := by
  have h : Ideal.sqrt ((0 : ℝ) : EReal) = 0 := by
    rw [Ideal.sqrt_coe, if_neg (lt_irrefl _), Real.sqrt_zero, EReal.coe_zero]
  rwa [EReal.coe_zero] at h

/-- The result with the distance written by one expression for every frame (the last frame's is `sqrt 0`), for real
    entries: the form a computation that pairs the last frame with itself arrives at. -/
theorem Gat_eq_uniform (x : (⟨4, ![512, 1024, 25, 3]⟩ : Shape).Idx → EReal) (hx : ∀ i, ∃ r : ℝ, x i = (r : EReal))
    (b : Fin 512) (s : Fin 1024) (n : Fin 25) (c : Fin 3) :
    x (ix4 b s n c) + Ideal.sqrt (stepSq x b s n) = Gat x b s n c := by
  unfold Gat
  by_cases h : s.val < 1023
  · rw [if_pos h]
  · rw [if_neg h, stepSq_last x hx b h n, sqrt_zero]

end Cert.FrameStep

end
-- ==== Proof.SelSum.lean ====
/-
  Sums against the 0/1 selection weights.

  Channel f of a flat frame (75 channels) belongs to node f / 3 and is that node's coordinate f % 3. The weight
  `[f / 3 = n]` is one when channel f belongs to node n and zero otherwise. Summing channel values against the weights
  of one node keeps that node's three channels; summing node values against the weights of one channel keeps that
  channel's node. Both are exact on the extended reals: a product with one is the factor and a product with zero is
  zero, whatever the factor.
-/
import Idealize.ShloMosaic.PureOps.Ideal

noncomputable section

namespace Cert.FrameStep

/-- Coordinate `k` of node `n` as a channel of the flat frame. -/
def chanOf (n : Fin 25) (k : Fin 3) : Fin 75 := ⟨3 * n.val + k.val, by have := n.isLt; have := k.isLt; omega⟩

/-- The node a channel belongs to. -/
def nodeOf (f : Fin 75) : Fin 25 := ⟨f.val / 3, by have := f.isLt; omega⟩

/-- The coordinate a channel is. -/
def coordOf (f : Fin 75) : Fin 3 := ⟨f.val % 3, by omega⟩

theorem nodeOf_chanOf (n : Fin 25) (k : Fin 3) : nodeOf (chanOf n k) = n := by
  apply Fin.ext; show (3 * n.val + k.val) / 3 = n.val; have := k.isLt; omega

theorem coordOf_chanOf (n : Fin 25) (k : Fin 3) : coordOf (chanOf n k) = k := by
  apply Fin.ext; show (3 * n.val + k.val) % 3 = k.val; have := k.isLt; omega

theorem chanOf_nodeOf_coordOf (f : Fin 75) : chanOf (nodeOf f) (coordOf f) = f := by
  apply Fin.ext; show 3 * (f.val / 3) + f.val % 3 = f.val; omega

/-- Node values summed against one channel's weights: the value at the channel's node. -/
theorem sum_sel_node (d : Fin 25 → EReal) (f : Fin 75) :
    ∑ n : Fin 25, d n * (if f.val / 3 = n.val then (1 : EReal) else 0) = d (nodeOf f) := by
  rw [Finset.sum_eq_single (nodeOf f)]
  · rw [if_pos (show f.val / 3 = (nodeOf f).val from rfl), mul_one]
  · intro n _ hn
    rw [if_neg (fun h => hn (Fin.ext h.symm)), mul_zero]
  · intro h; exact absurd (Finset.mem_univ _) h

/-- Channel values summed against one node's weights: the sum over the node's three channels. -/
theorem sum_sel_chan (q : Fin 75 → EReal) (n : Fin 25) :
    ∑ f : Fin 75, q f * (if f.val / 3 = n.val then (1 : EReal) else 0) = ∑ k : Fin 3, q (chanOf n k) := by
  have hw : ∀ f : Fin 75, q f * (if f.val / 3 = n.val then (1 : EReal) else 0) = if f.val / 3 = n.val then q f else 0 := by
    intro f
    by_cases h : f.val / 3 = n.val
    · rw [if_pos h, if_pos h, mul_one]
    · rw [if_neg h, if_neg h, mul_zero]
  rw [Finset.sum_congr rfl (fun f _ => hw f), ← Finset.sum_filter]
  have himg : (Finset.univ.filter fun f : Fin 75 => f.val / 3 = n.val) = Finset.univ.image (chanOf n) := by
    ext f
    simp only [Finset.mem_filter, Finset.mem_univ, true_and, Finset.mem_image]
    constructor
    · intro h
      refine ⟨coordOf f, ?_⟩
      have hn : nodeOf f = n := Fin.ext h
      rw [← hn]; exact chanOf_nodeOf_coordOf f
    · rintro ⟨k, rfl⟩
      exact congrArg Fin.val (nodeOf_chanOf n k)
  rw [himg, Finset.sum_image]
  intro a _ b _ h
  rw [← coordOf_chanOf n a, ← coordOf_chanOf n b, h]

end Cert.FrameStep

end
-- ==== Proof.Entry.lean ====
/-
  What the kernel region finds in its three operand arrays, read at an index.

  Before the region the host lines lay the input out flat, x[b, s, n, c] at channel f = 3 n + c of the [512, 1024, 75]
  array (row-major positions agree), and build the two 0/1 selection matrices from integer iotas: the [75, 25] matrix
  has a one at (f, n) exactly when channel f belongs to node n, that is when f / 3 = n (jnp's floor division of a
  non-negative channel number by 3 is the natural-number quotient), and the [25, 75] matrix is its transpose.

  The flat array is a shape cast of the input, so it reads the input at the index with the same row-major position:
  ((b * 1024 + s) * 25 + f / 3) * 3 + f % 3 = (b * 1024 + s) * 75 + f. The selection matrix is the conversion to a real
  of the bit array "floor(f / 3) = n", both sides 32-bit words: the left the host lines' floor division of the channel
  column (the quotient rounded toward zero, less one when the signs differ and the remainder is not zero), which on a
  channel number below 75 and the divisor 3 is the word of the natural-number quotient (checked over the 75 channel
  numbers); the right the node row. Words of numbers below 2 ^ 32 are equal exactly when the numbers are, and the bit
  read as a real is 1 or 0.
-/
import proofs.«102476_j61151744360729_1_alg».proof.Proof.Gen.KernelIdeal.Frame
import Idealize.ShloMosaic.Lib.ValueIdx
import Idealize.ShloMosaic.Lib.Pipeline.Value
import Idealize.ShloMosaic.Lib.StableHlo.Run

noncomputable section

namespace Cert.FrameStep.Entry

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The argument array as launched. -/
abbrev inArr (c : Dev nD) : FVec Ideal S512x1024x25x3 .f32 := m ((c : Thread nD τ).loc main_arg0)
/-- The flat [512, 1024, 75] array the region stages through its first window. -/
abbrev flatArr (c : Dev nD) : FVec Ideal S512x1024x75 .f32 := V m c main_v0
/-- The [75, 25] selection matrix the region stages through its second window. -/
abbrev selArr (c : Dev nD) : FVec Ideal S75x25 .f32 := V m c main_v9
/-- The [25, 75] selection matrix the region stages through its third window. -/
abbrev selTArr (c : Dev nD) : FVec Ideal S25x75 .f32 := V m c main_v10

/-! ## Words: floor division by three, and equality of small words -/

/-- The sign word of a 32-bit word: 0 at zero, all ones at a negative word, 1 otherwise. -/
def sgn (x : BitVec 32) : BitVec 32 := if x = 0 then 0 else if x.msb then -1 else 1

/-- Floor division of 32-bit words as the host lines compute it: the quotient rounded toward zero, less one when the
    operands' signs differ and the remainder is not zero. -/
def fdiv (x y : BitVec 32) : BitVec 32 :=
  Scalar.select
    (IntOp.andi (IntOp.cmpi .ne (sgn x) (sgn y)) (IntOp.cmpi .ne (IntOp.remsi .host x y) 0#32))
    (IntOp.subi (IntOp.divsi .host x y) 1#32)
    (IntOp.divsi .host x y)

/-- On the word of a channel number (below 75) that floor division by three is the word of the natural-number quotient:
    the divisor is neither zero nor minus one, so the signed quotient and remainder are the plain ones; the signs differ
    only at channel 0, where the remainder is zero; so the quotient is never lowered. A closed statement over 75 words,
    checked by evaluation. -/
theorem fdiv_three : ∀ f : Fin 75, fdiv (BitVec.ofNat 32 f.val) 3#32 = BitVec.ofNat 32 (f.val / 3) := by
  decide +kernel

/-- The words of two numbers below 2 ^ 32 are equal exactly when the numbers are. -/
theorem cmpi_eq_ofNat (a b : ℕ) (ha : a < 2 ^ 32) (hb : b < 2 ^ 32) :
    IntOp.cmpi .eq (BitVec.ofNat 32 a) (BitVec.ofNat 32 b) = if a = b then 1#1 else 0#1 := by
  by_cases h : a = b
  · subst h; rw [if_pos rfl]; simp [IntOp.cmpi]
  · rw [if_neg h]
    have hne : BitVec.ofNat 32 a ≠ BitVec.ofNat 32 b := fun he => h (by
      have := congrArg BitVec.toNat he
      rw [BitVec.toNat_ofNat, BitVec.toNat_ofNat] at this
      omega)
    show BitVec.ofBool (BitVec.ofNat 32 a == BitVec.ofNat 32 b) = 0#1
    rw [beq_eq_false_iff_ne.mpr hne]; rfl

/-! ## The integer arrays the host lines build -/

/-- The channel numbers as a [75, 1] column of words. -/
abbrev chanCol : IVec S75x1 32 := broadcastInDim S75x1 ![0] bcast_S75_S75x1_0 (iotaInDim S75 32 0)
/-- A scalar word laid over the column. -/
abbrev splatCol (w : IVec S_ 32) : IVec S75x1 32 := broadcastInDim S75x1 ![] bcast_S_S75x1 w
/-- The node numbers as a [1, 25] row of words. -/
abbrev nodeRow : IVec S1x25 32 := broadcastInDim S1x25 ![1] bcast_S25_S1x25_1 (iotaInDim S25 32 0)

/-- The host lines' floor division of the channel column by three, elementwise. -/
def nodeCol : IVec S75x1 32 :=
  select
    (andi (cmpi .ne (signi chanCol) (splatCol (signi (constantI S_ 32 3#32))))
      (cmpi .ne (Host.remsi chanCol (splatCol (constantI S_ 32 3#32))) (splatCol (constantI S_ 32 0#32))))
    (subi (Host.divsi chanCol (splatCol (constantI S_ 32 3#32))) (splatCol (constantI S_ 32 1#32)))
    (Host.divsi chanCol (splatCol (constantI S_ 32 3#32)))

/-- The [75, 25] array of bits "channel f's node is n": the column laid along the rows against the row laid down the
    columns. -/
def selBits : IVec S75x25 1 :=
  cmpi .eq (broadcastInDim S75x25 ![0, 1] bcast_S75x1_S75x25_0_1 nodeCol)
    (broadcastInDim S75x25 ![0, 1] bcast_S1x25_S75x25_0_1 nodeRow)

/-- The channel column at row f is the word of f. -/
theorem chanCol_apply (f : Fin 75) : chanCol (ix2 f (0 : Fin 1)) = BitVec.ofNat 32 f.val :=
  broadcastInDim_apply _ _ _ _ (ix1 f) fun a => match a with | ⟨0, _⟩ => rfl

/-- The floor-divided column at row f is the word of f / 3: elementwise it is the floor division of the channel word
    by the word 3. -/
theorem nodeCol_apply (f : Fin 75) : nodeCol (ix2 f (0 : Fin 1)) = BitVec.ofNat 32 (f.val / 3) := by
  refine Eq.trans ?_ (fdiv_three f)
  rw [← chanCol_apply f]
  rfl

/-- The node row at column n is the word of n. -/
theorem nodeRow_apply (n : Fin 25) : nodeRow (ix2 (0 : Fin 1) n) = BitVec.ofNat 32 n.val :=
  broadcastInDim_apply _ _ _ _ (ix1 n) fun a => match a with | ⟨0, _⟩ => rfl

/-- The bit at (f, n) is set exactly when f / 3 = n. -/
theorem selBits_apply (f : Fin 75) (n : Fin 25) : selBits (ix2 f n) = if f.val / 3 = n.val then 1#1 else 0#1 := by
  have hA : broadcastInDim S75x25 ![0, 1] bcast_S75x1_S75x25_0_1 nodeCol (ix2 f n) = nodeCol (ix2 f (0 : Fin 1)) :=
    broadcastInDim_apply _ _ _ _ _ fun a => match a with | ⟨0, _⟩ => rfl | ⟨1, _⟩ => rfl
  have hB : broadcastInDim S75x25 ![0, 1] bcast_S1x25_S75x25_0_1 nodeRow (ix2 f n) = nodeRow (ix2 (0 : Fin 1) n) :=
    broadcastInDim_apply _ _ _ _ _ fun a => match a with | ⟨0, _⟩ => rfl | ⟨1, _⟩ => rfl
  show IntOp.cmpi .eq (broadcastInDim S75x25 ![0, 1] bcast_S75x1_S75x25_0_1 nodeCol (ix2 f n))
    (broadcastInDim S75x25 ![0, 1] bcast_S1x25_S75x25_0_1 nodeRow (ix2 f n)) = _
  rw [hA, hB, nodeCol_apply, nodeRow_apply]
  exact cmpi_eq_ofNat _ _ (by have := f.isLt; omega) (by have := n.isLt; omega)

/-- The bit array read as reals: one where f / 3 = n, zero elsewhere. -/
theorem sel_apply (f : Fin 75) (n : Fin 25) :
    (uitofp (F := Ideal) .f32 selBits : S75x25.Idx → EReal) (ix2 f n) = if f.val / 3 = n.val then (1 : EReal) else 0 := by
  show (((selBits (ix2 f n)).toNat : ℝ) : EReal) = _
  rw [selBits_apply]
  by_cases h : f.val / 3 = n.val
  · rw [if_pos h, if_pos h]; simp
  · rw [if_neg h, if_neg h]; simp

/-! ## The three arrays as the host lines' terms -/

/-- The flat array is the shape cast of the input. -/
theorem flatArr_eq (c : Dev nD) :
    (flatArr m c : S512x1024x75.Idx → EReal)
      = shapeCast S512x1024x75 (inArr m c : S512x1024x25x3.Idx → EReal) shapeCasts_S512x1024x25x3_S512x1024x75 := by
  dsimp only [flatArr, inArr, Gen.V, Gen.V0]
  simp only [Gen.hostOps0, Gen.hostOps0_1, Gen.hostOps0_2, List.flatten_cons, List.flatten_nil, List.append_nil,
    List.cons_append, List.nil_append]
  after_results_simp
  rfl

/-- The [75, 25] selection matrix is the bit array read as reals. -/
theorem selArr_eq (c : Dev nD) : (selArr m c : S75x25.Idx → EReal) = uitofp (F := Ideal) .f32 selBits := by
  dsimp only [selArr, Gen.V, Gen.V0]
  simp only [Gen.hostOps0, Gen.hostOps0_1, Gen.hostOps0_2, List.flatten_cons, List.flatten_nil, List.append_nil,
    List.cons_append, List.nil_append]
  after_results_simp
  rfl

/-- The [25, 75] selection matrix is its transpose. -/
theorem selTArr_eq (c : Dev nD) :
    (selTArr m c : S25x75.Idx → EReal)
      = transpose S25x75 [1, 0] (uitofp (F := Ideal) .f32 selBits : S75x25.Idx → EReal) transposes_S75x25_S25x75_1_0 := by
  dsimp only [selTArr, Gen.V, Gen.V0]
  simp only [Gen.hostOps0, Gen.hostOps0_1, Gen.hostOps0_2, List.flatten_cons, List.flatten_nil, List.append_nil,
    List.cons_append, List.nil_append]
  after_results_simp
  rfl

/-! ## Read at an index -/

/-- The flat array at channel `f` of a frame is the input at coordinate `f % 3` of node `f / 3`. -/
theorem entry_flat (c : Dev nD) (b : Fin 512) (s : Fin 1024) (f : Fin 75) :
    flatArr m c (ix3 b s f)
      = inArr m c (ix4 b s ⟨f.val / 3, by have := f.isLt; omega⟩ ⟨f.val % 3, by omega⟩) := by
  refine (congrFun (flatArr_eq m c) _).trans ?_
  refine shapeCast_apply _ _ _ _ ?_
  -- the two row-major positions, as sums of products
  have h4 := Shape.rowMajor_val_four (d := ![512, 1024, 25, 3])
    (ix4 b s (⟨f.val / 3, by have := f.isLt; omega⟩ : Fin 25) (⟨f.val % 3, by omega⟩ : Fin 3))
  have h3 := Shape.rowMajor_val_three (d := ![512, 1024, 75]) (ix3 b s f)
  refine h4.trans (Eq.trans ?_ h3.symm)
  show ((b.val * 1024 + s.val) * 25 + f.val / 3) * 3 + f.val % 3 = (b.val * 1024 + s.val) * 75 + f.val
  omega

/-- The selection matrix: one where channel `f` belongs to node `n`, zero elsewhere. -/
theorem entry_sel (c : Dev nD) (f : Fin 75) (n : Fin 25) :
    selArr m c (ix2 f n) = if f.val / 3 = n.val then (1 : EReal) else 0 :=
  (congrFun (selArr_eq m c) _).trans (sel_apply f n)

/-- Its transpose. -/
theorem entry_selT (c : Dev nD) (n : Fin 25) (f : Fin 75) :
    selTArr m c (ix2 n f) = if f.val / 3 = n.val then (1 : EReal) else 0 :=
  (congrFun (selTArr_eq m c) _).trans
    ((transpose_apply _ _ _ (ix2 n f) (ix2 f n) fun a => match a with | ⟨0, _⟩ => rfl | ⟨1, _⟩ => rfl).trans
      (sel_apply f n))

end Cert.FrameStep.Entry

end
-- ==== Proof.Payload.lean ====
/-
  The kernel body's stored value at an index.

  The body works on a block of 4 sequences: x0[p, s, f], f the flat channel. It pairs each frame with its successor
  (the last frame with itself), squares the channel differences, and multiplies the [4096, 75] matrix of squares (row
  1024 p + s) by the [75, 25] selection matrix: with the matrix's entries the weights `[f / 3 = n]`, entry (row, n) is
  the sum of the squares over node n's three channels. The square root of that, multiplied by the transposed selection
  matrix, puts at (row, f) the distance of the node channel f belongs to; the body adds it to x0[p, s, f].
-/
import proofs.«102476_j61151744360729_1_alg».proof.Proof.Gen.KernelIdeal.Skeleton
import proofs.«102476_j61151744360729_1_alg».proof.Proof.Spec
import proofs.«102476_j61151744360729_1_alg».proof.Proof.SelSum
import Idealize.ShloMosaic.Lib.ValueIdx
import Idealize.ShloMosaic.Lib.Pipeline.Value
import Idealize.ShloMosaic.PureOps.Ideal.Laws

noncomputable section

namespace Cert.FrameStep.Body

open Cert.KernelIdeal Cert.KernelIdeal.Gen
open Idealize.ShloMosaic Idealize.ShloMosaic.ValueIdx
open Cert.FrameStep

/-- The row of the [4096, ·] matrices that holds frame `s` of the block's sequence `p`. -/
def rowOf (p : Fin 4) (s : Fin 1024) : Fin 4096 := ⟨p.val * 1024 + s.val, by have := p.isLt; have := s.isLt; omega⟩

/-- The successor-frame view: frames 1..1023 followed by a copy of frame 1023. -/
theorem next_apply (v : FVec Ideal S4x1024x75 .f32) (p : Fin 4) (s : Fin 1024) (f : Fin 75) :
    concatenate S4x1024x75 1 [⟨S4x1023x75, extractStridedSlice S4x1023x75 ![0, 1, 0] v slices_S4x1024x75_o0_1_0_S4x1023x75⟩,
      ⟨S4x1x75, extractStridedSlice S4x1x75 ![0, 1023, 0] v slices_S4x1024x75_o0_1023_0_S4x1x75⟩]
      concatenates_S4x1023x75_S4x1x75_S4x1024x75_d1 (ix3 p s f) = v (ix3 p (nxt s) f) := by
  by_cases h : s.val < 1023
  · refine (concatenate_pair_apply_left (t := S4x1024x75) (s₁ := S4x1023x75) (s₂ := S4x1x75) (1 : Fin 3)
      (extractStridedSlice S4x1023x75 ![0, 1, 0] v slices_S4x1024x75_o0_1_0_S4x1023x75)
      (extractStridedSlice S4x1x75 ![0, 1023, 0] v slices_S4x1024x75_o0_1023_0_S4x1x75)
      concatenates_S4x1023x75_S4x1x75_S4x1024x75_d1 (ix3 p s f) rfl
      (ix3 p (⟨s.val, h⟩ : Fin 1023) f) (fun b => by match b with | ⟨0, _⟩ => rfl | ⟨1, _⟩ => rfl | ⟨2, _⟩ => rfl)).trans ?_
    refine extractStridedSlice_apply ![0, 1, 0] v slices_S4x1024x75_o0_1_0_S4x1023x75 (ix3 p (⟨s.val, h⟩ : Fin 1023) f) (ix3 p (nxt s) f) (fun a => ?_)
    match a with
    | ⟨0, _⟩ => show p.val = 0 + p.val; omega
    | ⟨1, _⟩ => show (nxt s).val = 1 + s.val; rw [nxt_val_of_lt h]; omega
    | ⟨2, _⟩ => show f.val = 0 + f.val; omega
  · have hs : s.val = 1023 := by have := s.isLt; omega
    refine (concatenate_pair_apply_right (t := S4x1024x75) (s₁ := S4x1023x75) (s₂ := S4x1x75) (1 : Fin 3)
      (extractStridedSlice S4x1023x75 ![0, 1, 0] v slices_S4x1024x75_o0_1_0_S4x1023x75)
      (extractStridedSlice S4x1x75 ![0, 1023, 0] v slices_S4x1024x75_o0_1023_0_S4x1x75)
      concatenates_S4x1023x75_S4x1x75_S4x1024x75_d1 (ix3 p s f) rfl rfl
      (ix3 p (0 : Fin 1) f) (fun b hb => by
        match b with
        | ⟨0, _⟩ => rfl
        | ⟨1, _⟩ => exact absurd rfl hb
        | ⟨2, _⟩ => rfl)
      (by show 0 + 1023 = s.val; omega)).trans ?_
    refine extractStridedSlice_apply ![0, 1023, 0] v slices_S4x1024x75_o0_1023_0_S4x1x75 (ix3 p (0 : Fin 1) f) (ix3 p (nxt s) f) (fun a => ?_)
    match a with
    | ⟨0, _⟩ => show p.val = 0 + p.val; omega
    | ⟨1, _⟩ => show (nxt s).val = 1023 + 0; rw [nxt_last h]; omega
    | ⟨2, _⟩ => show f.val = 0 + f.val; omega

/-- A [4, 1024, 75] array laid out as a [4096, 75] matrix: row `rowOf p s` is frame `s` of sequence `p`. -/
theorem flat75_apply (v : FVec Ideal S4x1024x75 .f32) (p : Fin 4) (s : Fin 1024) (f : Fin 75) :
    shapeCast S4096x75 v shapeCasts_S4x1024x75_S4096x75 (ix2 (rowOf p s) f) = v (ix3 p s f) := by
  refine shapeCast_apply v _ (ix2 (rowOf p s) f) (ix3 p s f) ?_
  rw [Shape.rowMajor_val_two, Shape.rowMajor_val_three]
  rfl

/-- And back: a [4096, 75] matrix read as a [4, 1024, 75] array. -/
theorem unflat75_apply (v : FVec Ideal S4096x75 .f32) (p : Fin 4) (s : Fin 1024) (f : Fin 75) :
    shapeCast S4x1024x75 v shapeCasts_S4096x75_S4x1024x75 (ix3 p s f) = v (ix2 (rowOf p s) f) := by
  refine shapeCast_apply v _ (ix3 p s f) (ix2 (rowOf p s) f) ?_
  rw [Shape.rowMajor_val_two, Shape.rowMajor_val_three]
  rfl

/-- The square root taken on the [4, 1024, 25] layout of a [4096, 25] matrix and laid out back is the entrywise
    square root of the matrix. -/
theorem sqrt25_apply (v : FVec Ideal S4096x25 .f32) (j : S4096x25.Idx) :
    shapeCast S4096x25 (sqrt (shapeCast S4x1024x25 v shapeCasts_S4096x25_S4x1024x25)) shapeCasts_S4x1024x25_S4096x25 j
      = Ideal.sqrt (v j) := by
  have e := congrFun (shapeCast_shapeCast v shapeCasts_S4096x25_S4x1024x25 shapeCasts_S4x1024x25_S4096x25) j
  exact congrArg Ideal.sqrt e

theorem lhsSq_0 (i : S4096x25.Idx) (q : dot_S4096x75_S75x25_S4096x25_1_0_0_1_n_n.contr.Idx) : (dot_S4096x75_S75x25_S4096x25_1_0_0_1_n_n.lhsIdx i q 0).val = (i 0).val := by
  unfold DotDims.lhsIdx
  rw [dif_neg (show ¬(0 : Fin S4096x75.rank) ∈ dot_S4096x75_S75x25_S4096x25_1_0_0_1_n_n.lhsBatch by decide), dif_pos (show (0 : Fin S4096x75.rank) ∈ dot_S4096x75_S75x25_S4096x25_1_0_0_1_n_n.lhsNonContracting by decide)]
  rfl
theorem lhsSq_1 (i : S4096x25.Idx) (q : dot_S4096x75_S75x25_S4096x25_1_0_0_1_n_n.contr.Idx) : (dot_S4096x75_S75x25_S4096x25_1_0_0_1_n_n.lhsIdx i q 1).val = (q ⟨0, by decide⟩).val :=
  dot_S4096x75_S75x25_S4096x25_1_0_0_1_n_n.lhsIdx_val_of_single rfl i q
theorem rhsSq_0 (i : S4096x25.Idx) (q : dot_S4096x75_S75x25_S4096x25_1_0_0_1_n_n.contr.Idx) : (dot_S4096x75_S75x25_S4096x25_1_0_0_1_n_n.rhsIdx i q 0).val = (q ⟨0, by decide⟩).val :=
  dot_S4096x75_S75x25_S4096x25_1_0_0_1_n_n.rhsIdx_val_of_single rfl i q
theorem rhsSq_1 (i : S4096x25.Idx) (q : dot_S4096x75_S75x25_S4096x25_1_0_0_1_n_n.contr.Idx) : (dot_S4096x75_S75x25_S4096x25_1_0_0_1_n_n.rhsIdx i q 1).val = (i 1).val := by
  unfold DotDims.rhsIdx
  rw [dif_neg (show ¬(1 : Fin S75x25.rank) ∈ dot_S4096x75_S75x25_S4096x25_1_0_0_1_n_n.rhsBatch by decide), dif_pos (show (1 : Fin S75x25.rank) ∈ dot_S4096x75_S75x25_S4096x25_1_0_0_1_n_n.rhsNonContracting by decide)]
  rfl

/-- The product of the [4096, 75] matrix with the [75, 25] matrix into a zero accumulator: entry (i, n) is the sum over the 75 channels. -/
theorem mmSq_apply (l : FVec Ideal S4096x75 .f32) (r : FVec Ideal S75x25 .f32) (i : Fin 4096) (j : Fin 25) :
    matmul dot_S4096x75_S75x25_S4096x25_1_0_0_1_n_n (some .fp32) l r (constant (F := Ideal) S4096x25 .f32 0x00000000#32) (ix2 i j)
      = ∑ k : Fin 75, l (ix2 i k) * r (ix2 k j) := by
  refine (Ideal.matmul_constant_zero_apply dot_S4096x75_S75x25_S4096x25_1_0_0_1_n_n (some .fp32) l r (ix2 i j)).trans ?_
  rw [← Equiv.sum_comp (ValueIdx.contrEquiv1 dot_S4096x75_S75x25_S4096x25_1_0_0_1_n_n 75 rfl rfl).symm]
  refine Finset.sum_congr rfl fun k _ => ?_
  have hk := ValueIdx.contrEquiv1_symm_val dot_S4096x75_S75x25_S4096x25_1_0_0_1_n_n 75 rfl rfl k
  have el : dot_S4096x75_S75x25_S4096x25_1_0_0_1_n_n.lhsIdx (ix2 i j) ((ValueIdx.contrEquiv1 dot_S4096x75_S75x25_S4096x25_1_0_0_1_n_n 75 rfl rfl).symm k) = ix2 i k := funext fun a => Fin.ext (by
    match a with
    | ⟨0, _⟩ => exact lhsSq_0 _ _
    | ⟨1, _⟩ => exact (lhsSq_1 _ _).trans hk)
  have er : dot_S4096x75_S75x25_S4096x25_1_0_0_1_n_n.rhsIdx (ix2 i j) ((ValueIdx.contrEquiv1 dot_S4096x75_S75x25_S4096x25_1_0_0_1_n_n 75 rfl rfl).symm k) = ix2 k j := funext fun a => Fin.ext (by
    match a with
    | ⟨0, _⟩ => exact (rhsSq_0 _ _).trans hk
    | ⟨1, _⟩ => exact rhsSq_1 _ _)
  rw [el, er]

theorem lhsDist_0 (i : S4096x75.Idx) (q : dot_S4096x25_S25x75_S4096x75_1_0_0_1_n_n.contr.Idx) : (dot_S4096x25_S25x75_S4096x75_1_0_0_1_n_n.lhsIdx i q 0).val = (i 0).val := by
  unfold DotDims.lhsIdx
  rw [dif_neg (show ¬(0 : Fin S4096x25.rank) ∈ dot_S4096x25_S25x75_S4096x75_1_0_0_1_n_n.lhsBatch by decide), dif_pos (show (0 : Fin S4096x25.rank) ∈ dot_S4096x25_S25x75_S4096x75_1_0_0_1_n_n.lhsNonContracting by decide)]
  rfl
theorem lhsDist_1 (i : S4096x75.Idx) (q : dot_S4096x25_S25x75_S4096x75_1_0_0_1_n_n.contr.Idx) : (dot_S4096x25_S25x75_S4096x75_1_0_0_1_n_n.lhsIdx i q 1).val = (q ⟨0, by decide⟩).val :=
  dot_S4096x25_S25x75_S4096x75_1_0_0_1_n_n.lhsIdx_val_of_single rfl i q
theorem rhsDist_0 (i : S4096x75.Idx) (q : dot_S4096x25_S25x75_S4096x75_1_0_0_1_n_n.contr.Idx) : (dot_S4096x25_S25x75_S4096x75_1_0_0_1_n_n.rhsIdx i q 0).val = (q ⟨0, by decide⟩).val :=
  dot_S4096x25_S25x75_S4096x75_1_0_0_1_n_n.rhsIdx_val_of_single rfl i q
theorem rhsDist_1 (i : S4096x75.Idx) (q : dot_S4096x25_S25x75_S4096x75_1_0_0_1_n_n.contr.Idx) : (dot_S4096x25_S25x75_S4096x75_1_0_0_1_n_n.rhsIdx i q 1).val = (i 1).val := by
  unfold DotDims.rhsIdx
  rw [dif_neg (show ¬(1 : Fin S25x75.rank) ∈ dot_S4096x25_S25x75_S4096x75_1_0_0_1_n_n.rhsBatch by decide), dif_pos (show (1 : Fin S25x75.rank) ∈ dot_S4096x25_S25x75_S4096x75_1_0_0_1_n_n.rhsNonContracting by decide)]
  rfl

/-- The product of the [4096, 25] matrix with the [25, 75] matrix into a zero accumulator: entry (i, f) is the sum over the 25 nodes. -/
theorem mmDist_apply (l : FVec Ideal S4096x25 .f32) (r : FVec Ideal S25x75 .f32) (i : Fin 4096) (j : Fin 75) :
    matmul dot_S4096x25_S25x75_S4096x75_1_0_0_1_n_n (some .fp32) l r (constant (F := Ideal) S4096x75 .f32 0x00000000#32) (ix2 i j)
      = ∑ k : Fin 25, l (ix2 i k) * r (ix2 k j) := by
  refine (Ideal.matmul_constant_zero_apply dot_S4096x25_S25x75_S4096x75_1_0_0_1_n_n (some .fp32) l r (ix2 i j)).trans ?_
  rw [← Equiv.sum_comp (ValueIdx.contrEquiv1 dot_S4096x25_S25x75_S4096x75_1_0_0_1_n_n 25 rfl rfl).symm]
  refine Finset.sum_congr rfl fun k _ => ?_
  have hk := ValueIdx.contrEquiv1_symm_val dot_S4096x25_S25x75_S4096x75_1_0_0_1_n_n 25 rfl rfl k
  have el : dot_S4096x25_S25x75_S4096x75_1_0_0_1_n_n.lhsIdx (ix2 i j) ((ValueIdx.contrEquiv1 dot_S4096x25_S25x75_S4096x75_1_0_0_1_n_n 25 rfl rfl).symm k) = ix2 i k := funext fun a => Fin.ext (by
    match a with
    | ⟨0, _⟩ => exact lhsDist_0 _ _
    | ⟨1, _⟩ => exact (lhsDist_1 _ _).trans hk)
  have er : dot_S4096x25_S25x75_S4096x75_1_0_0_1_n_n.rhsIdx (ix2 i j) ((ValueIdx.contrEquiv1 dot_S4096x25_S25x75_S4096x75_1_0_0_1_n_n 25 rfl rfl).symm k) = ix2 k j := funext fun a => Fin.ext (by
    match a with
    | ⟨0, _⟩ => exact (rhsDist_0 _ _).trans hk
    | ⟨1, _⟩ => exact rhsDist_1 _ _)
  rw [el, er]

/-- The squared difference, at channel `g`, between the successor frame and frame `s` of the block's sequence `p`. -/
def sqd (x0 : FVec Ideal S4x1024x75 .f32) (p : Fin 4) (s : Fin 1024) (g : Fin 75) : EReal :=
  (x0 (ix3 p (nxt s) g) - x0 (ix3 p s g)) * (x0 (ix3 p (nxt s) g) - x0 (ix3 p s g))

/-- The matrix of squares at (row of (p, s), channel g). -/
theorem sq_apply (x0 : FVec Ideal S4x1024x75 .f32) (p : Fin 4) (s : Fin 1024) (g : Fin 75) :
    shapeCast S4096x75
      (mulf
        (subf (concatenate S4x1024x75 1 [⟨S4x1023x75, extractStridedSlice S4x1023x75 ![0, 1, 0] x0 slices_S4x1024x75_o0_1_0_S4x1023x75⟩,
          ⟨S4x1x75, extractStridedSlice S4x1x75 ![0, 1023, 0] x0 slices_S4x1024x75_o0_1023_0_S4x1x75⟩]
          concatenates_S4x1023x75_S4x1x75_S4x1024x75_d1) x0)
        (subf (concatenate S4x1024x75 1 [⟨S4x1023x75, extractStridedSlice S4x1023x75 ![0, 1, 0] x0 slices_S4x1024x75_o0_1_0_S4x1023x75⟩,
          ⟨S4x1x75, extractStridedSlice S4x1x75 ![0, 1023, 0] x0 slices_S4x1024x75_o0_1023_0_S4x1x75⟩]
          concatenates_S4x1023x75_S4x1x75_S4x1024x75_d1) x0))
      shapeCasts_S4x1024x75_S4096x75 (ix2 (rowOf p s) g) = sqd x0 p s g := by
  refine (flat75_apply _ p s g).trans ?_
  have e := next_apply x0 p s g
  show (_ - x0 (ix3 p s g)) * (_ - x0 (ix3 p s g)) = _
  rw [e]
  rfl

/-- THE PAYLOAD AT AN INDEX. With the two small operands the selection matrix and its transpose, the value the body
    stores at (p, s, f) is x0[p, s, f] plus the square root of the sum, over the three channels of the node channel f
    belongs to, of the squared difference between the successor frame and frame s. -/
theorem pay_apply (x0 : FVec Ideal S4x1024x75 .f32) (x1 : FVec Ideal S75x25 .f32) (x2 : FVec Ideal S25x75 .f32)
    (h1 : ∀ (f : Fin 75) (n : Fin 25), x1 (ix2 f n) = if f.val / 3 = n.val then (1 : EReal) else 0)
    (h2 : ∀ (n : Fin 25) (f : Fin 75), x2 (ix2 n f) = if f.val / 3 = n.val then (1 : EReal) else 0)
    (p : Fin 4) (s : Fin 1024) (f : Fin 75) :
    k0_pay1 (F := Ideal) x0 x1 x2 (ix3 p s f)
      = x0 (ix3 p s f) + Ideal.sqrt (∑ k : Fin 3, sqd x0 p s (chanOf (nodeOf f) k)) := by
  unfold k0_pay1
  have hv : shapeCast S4x1024x75 x0 shapeCasts_S4x1024x75_S4x1024x75 = x0 := shapeCast_self _ _
  have h9 : shapeCast S75x25 x1 shapeCasts_S75x25_S75x25 = x1 := shapeCast_self _ _
  have h15 : shapeCast S25x75 x2 shapeCasts_S25x75_S25x75 = x2 := shapeCast_self _ _
  rw [hv, h9, h15]
  refine (addf_apply _ _ _).trans (congrArg (x0 (ix3 p s f) + ·) ?_)
  refine (unflat75_apply _ p s f).trans ?_
  refine (mmDist_apply _ x2 (rowOf p s) f).trans ?_
  refine (Finset.sum_congr rfl fun n _ => congrArg₂ (· * ·)
    (?_ : _ = Ideal.sqrt (∑ k : Fin 3, sqd x0 p s (chanOf n k))) (h2 n f)).trans ?_
  · refine (sqrt25_apply _ _).trans (congrArg Ideal.sqrt ?_)
    refine (mmSq_apply _ x1 (rowOf p s) n).trans ?_
    refine (Finset.sum_congr rfl fun g _ => congrArg₂ (· * ·) (sq_apply x0 p s g) (h1 g n)).trans ?_
    exact sum_sel_chan (sqd x0 p s) n
  · exact sum_sel_node (fun n => Ideal.sqrt (∑ k : Fin 3, sqd x0 p s (chanOf n k))) f

end Cert.FrameStep.Body

end
-- ==== Proof.Region.lean ====
/-
  The region's output array after the run, as one function of the input.

  Grid point t works on sequences 4 t .. 4 t + 3: its input block is rows 4 t + p of the flat array, and it writes
  back the same rows of the flat result. What it writes at (p, s, f) is the stored value of the body — the entry plus
  the distance of the node channel f belongs to, from frame s to its successor — which, read through the flat layout
  (channel f is coordinate f % 3 of node f / 3), is the specification's result at (4 t + p, s, f / 3, f % 3): for real
  entries the distance at the last frame, a square root of a sum of squares of differences a - a, is the zero the
  specification has there. The 128 blocks tile the array, so the whole array ends as that function.
-/
import proofs.«102476_j61151744360729_1_alg».proof.Proof.Gen.KernelIdeal.Frame
import proofs.«102476_j61151744360729_1_alg».proof.Proof.Spec
import proofs.«102476_j61151744360729_1_alg».proof.Proof.SelSum
import proofs.«102476_j61151744360729_1_alg».proof.Proof.Entry
import proofs.«102476_j61151744360729_1_alg».proof.Proof.Payload
import Idealize.ShloMosaic.Lib.ValueIdx
import Idealize.ShloMosaic.Lib.Pipeline.Value

set_option maxRecDepth 16384

noncomputable section

namespace Cert.FrameStep.Region

open Cert.KernelIdeal Cert.KernelIdeal.Gen
open Idealize.ShloMosaic Idealize.ShloMosaic.TcCoe Idealize.ShloMosaic.ValueIdx Idealize.SL.Sem
open Idealize.ShloMosaic.Pipeline (Dat)
open Cert.FrameStep Cert.FrameStep.Entry Cert.FrameStep.Body

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The flat result: channel `f` of frame `s` of sequence `b` holds the specification's result at coordinate
    `f % 3` of node `f / 3`. -/
def Gflat (x : FVec Ideal S512x1024x25x3 .f32) : FVec Ideal S512x1024x75 .f32 :=
  fun j => Gat x (j 0) (j 1) (nodeOf (j 2)) (coordOf (j 2))

theorem Gflat_ix3 (x : FVec Ideal S512x1024x25x3 .f32) (b : Fin 512) (s : Fin 1024) (f : Fin 75) :
    Gflat x (ix3 b s f) = Gat x b s (nodeOf f) (coordOf f) := rfl

/-- The sequence that row `p` of grid point `t`'s block is. -/
def seqOf (t : Fin cfg0.N) (p : Fin 4) : Fin 512 :=
  ⟨t.val * 4 + p.val, by have := lt_of_lt_of_eq t.isLt N_0; have := p.isLt; omega⟩

/-- The printed index maps over the grid: the first and last windows' block index is the point on the sequence
    axis and zero on the others; the two small windows stay at block zero. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The three input blocks at a point, at their literal types. -/
abbrev blk0 (c : Dev nD) (t : Fin cfg0.N) : FVec Ideal S4x1024x75 .f32 := iblk m c 0 t
abbrev blk1 (c : Dev nD) (t : Fin cfg0.N) : FVec Ideal S75x25 .f32 := iblk m c 1 t
abbrev blk2 (c : Dev nD) (t : Fin cfg0.N) : FVec Ideal S25x75 .f32 := iblk m c 2 t

/-- Row `p` of point `t`'s input block is sequence `4 t + p` of the flat array, hence of the input. -/
theorem blk0_apply (c : Dev nD) (t : Fin cfg0.N) (p : Fin 4) (s : Fin 1024) (g : Fin 75) :
    blk0 m c t (ix3 p s g) = inArr m c (ix4 (seqOf t p) s (nodeOf g) (coordOf g)) := by
  obtain ⟨e0, e1, e2, -⟩ := idx_facts t
  refine Eq.trans ?_ (entry_flat m c (seqOf t p) s g)
  show V m c main_v0 (((cfg0.win 0).blk t).view.emb (ix3 p s g)) = V m c main_v0 (ix3 (seqOf t p) s g)
  refine congrArg (V m c main_v0) (funext fun a => Fin.ext ?_)
  match a with
  | ⟨0, _⟩ => show win0_0.index t (0 : Fin 3) * 4 + 1 * p.val = t.val * 4 + p.val; omega
  | ⟨1, _⟩ => show win0_0.index t (1 : Fin 3) * 1024 + 1 * s.val = s.val; omega
  | ⟨2, _⟩ => show win0_0.index t (2 : Fin 3) * 75 + 1 * g.val = g.val; omega

/-- The small windows' one block is the whole selection matrix. -/
theorem blk1_apply (c : Dev nD) (t : Fin cfg0.N) (f : Fin 75) (n : Fin 25) :
    blk1 m c t (ix2 f n) = if f.val / 3 = n.val then (1 : EReal) else 0 := by
  obtain ⟨-, -, -, -, -, -, e0, e1, -⟩ := idx_facts t
  refine Eq.trans ?_ (entry_sel m c f n)
  show V m c main_v9 (((cfg0.win 1).blk t).view.emb (ix2 f n)) = V m c main_v9 (ix2 f n)
  refine congrArg (V m c main_v9) (funext fun a => Fin.ext ?_)
  match a with
  | ⟨0, _⟩ => show win0_1.index t (0 : Fin 2) * 75 + 1 * f.val = f.val; omega
  | ⟨1, _⟩ => show win0_1.index t (1 : Fin 2) * 25 + 1 * n.val = n.val; omega

theorem blk2_apply (c : Dev nD) (t : Fin cfg0.N) (n : Fin 25) (f : Fin 75) :
    blk2 m c t (ix2 n f) = if f.val / 3 = n.val then (1 : EReal) else 0 := by
  obtain ⟨-, -, -, -, -, -, -, -, e0, e1⟩ := idx_facts t
  refine Eq.trans ?_ (entry_selT m c n f)
  show V m c main_v10 (((cfg0.win 2).blk t).view.emb (ix2 n f)) = V m c main_v10 (ix2 n f)
  refine congrArg (V m c main_v10) (funext fun a => Fin.ext ?_)
  match a with
  | ⟨0, _⟩ => show win0_2.index t (0 : Fin 2) * 25 + 1 * n.val = n.val; omega
  | ⟨1, _⟩ => show win0_2.index t (1 : Fin 2) * 75 + 1 * f.val = f.val; omega

/-- The sum of squared differences the body forms for node `n` in its block is the specification's squared distance. -/
theorem sum_sqd_eq (c : Dev nD) (t : Fin cfg0.N) (p : Fin 4) (s : Fin 1024) (n : Fin 25) :
    ∑ k : Fin 3, sqd (blk0 m c t) p s (chanOf n k) = stepSq (inArr m c) (seqOf t p) s n := by
  unfold stepSq
  refine Finset.sum_congr rfl fun k _ => ?_
  unfold sqd
  rw [blk0_apply, blk0_apply, nodeOf_chanOf, coordOf_chanOf]

/-- WHAT POINT `t` WRITES BACK is its block of the flat result, when the input's entries are real. -/
theorem flushed3_eq (c : Dev nD) (hx : ∀ i, ∃ r : ℝ, inArr m c i = (r : EReal)) (t : Fin cfg0.N) :
    (dats m 0 c).flushed 3 t = ((cfg0.win 3).blk t).view.read (Elt Ideal) (Gflat (inArr m c)) := by
  show (cfg0.win 3).cut (grid0.coords t) ((dats m 0 c).after 3 t) = _
  rw [after0_3]
  unfold out0_3
  rw [View.canon_unit_zero hz3]
  simp only [View.ld_unit_zero (S := S4x1024x75) hz3, View.ld_unit_zero (S := S75x25) hz2, View.ld_unit_zero (S := S25x75) hz2]
  obtain ⟨-, -, -, e0, e1, e2, -⟩ := idx_facts t
  funext j
  obtain ⟨p, s, f, rfl⟩ : ∃ (p : Fin 4) (s : Fin 1024) (f : Fin 75), j = ix3 p s f := ⟨j 0, j 1, j 2, eq_ix3 j⟩
  show k0_pay1 (F := Ideal) (blk0 m c t) (blk1 m c t) (blk2 m c t) (ix3 p s f)
    = Gflat (inArr m c) (((cfg0.win 3).blk t).view.emb (ix3 p s f))
  have hemb : ((cfg0.win 3).blk t).view.emb (ix3 p s f) = ix3 (seqOf t p) s f := funext fun a => Fin.ext (by
    match a with
    | ⟨0, _⟩ => show win0_3.index t (0 : Fin 3) * 4 + 1 * p.val = t.val * 4 + p.val; omega
    | ⟨1, _⟩ => show win0_3.index t (1 : Fin 3) * 1024 + 1 * s.val = s.val; omega
    | ⟨2, _⟩ => show win0_3.index t (2 : Fin 3) * 75 + 1 * f.val = f.val; omega)
  rw [hemb, Gflat_ix3]
  refine (pay_apply (blk0 m c t) (blk1 m c t) (blk2 m c t) (blk1_apply m c t) (blk2_apply m c t) p s f).trans ?_
  rw [sum_sqd_eq, blk0_apply]
  exact Gat_eq_uniform (inArr m c) hx (seqOf t p) s (nodeOf f) (coordOf f)

/-- An index of the flat result is in point `t`'s block iff each coordinate is in the block's range on its axis. -/
theorem mem_blk3 (t : Fin cfg0.N) (i : S512x1024x75.Idx) :
    i ∈ ((cfg0.win 3).blk t).view.set ↔ ∀ a : Fin 3, win0_3.index t a * S4x1024x75.size a ≤ (i a).val
      ∧ (i a).val < win0_3.index t a * S4x1024x75.size a + S4x1024x75.size a := by
  show i ∈ ((View.whole main_v11).slice (win0_3.rect t)).set ↔ _
  rw [View.set_slice_whole, Rect.mem_set_unit]
  exact Iff.rfl

/-- Every index is in some point's block: sequence `b` is written by point `b / 4`. -/
theorem cover3 (i : S512x1024x75.Idx) :
    ∃ t : Fin cfg0.N, (cfg0.win 3).flush t = true ∧ i ∈ ((cfg0.win 3).blk t).view.set := by
  have hi0 : (i 0).val < 512 := (i 0).isLt
  have hi1 : (i 1).val < 1024 := (i 1).isLt
  have hi2 : (i 2).val < 75 := (i 2).isLt
  have hN : (i 0).val / 4 < cfg0.N := by rw [show cfg0.N = 128 from N_0]; omega
  obtain ⟨-, -, -, e0, e1, e2, -⟩ := idx_facts ⟨(i 0).val / 4, hN⟩
  have e0' : win0_3.index ⟨(i 0).val / 4, hN⟩ (0 : Fin 3) = (i 0).val / 4 := e0
  refine ⟨⟨(i 0).val / 4, hN⟩, flush0_3 _, ?_⟩
  rw [mem_blk3]
  intro a
  match a with
  | ⟨0, _⟩ =>
    show win0_3.index ⟨(i 0).val / 4, hN⟩ (0 : Fin 3) * 4 ≤ (i 0).val ∧ (i 0).val < win0_3.index ⟨(i 0).val / 4, hN⟩ (0 : Fin 3) * 4 + 4
    omega
  | ⟨1, _⟩ =>
    show win0_3.index ⟨(i 0).val / 4, hN⟩ (1 : Fin 3) * 1024 ≤ (i 1).val ∧ (i 1).val < win0_3.index ⟨(i 0).val / 4, hN⟩ (1 : Fin 3) * 1024 + 1024
    omega
  | ⟨2, _⟩ =>
    show win0_3.index ⟨(i 0).val / 4, hN⟩ (2 : Fin 3) * 75 ≤ (i 2).val ∧ (i 2).val < win0_3.index ⟨(i 0).val / 4, hN⟩ (2 : Fin 3) * 75 + 75
    omega

/-- THE FLAT RESULT after the run is `Gflat` of the input. -/
theorem final3 (c : Dev nD) (hx : ∀ i, ∃ r : ℝ, inArr m c i = (r : EReal)) :
    (dats m 0 c).arrAt 3 cfg0.N = Gflat (inArr m c) :=
  (dats m 0 c).arrAt_eq_of_cover 3 (Gflat (inArr m c)) (fun t _ => flushed3_eq m c hx t) cover3

end Cert.FrameStep.Region

end
-- ==== Proof.Result.lean ====
/-
  The idealized kernel program's result.

  After the region the host reshapes the flat [512, 1024, 75] result to [512, 1024, 25, 3]: entry (b, s, n, c) is the
  flat entry at channel 3 n + c (equal row-major positions), which belongs to node n and is its coordinate c. So the
  program's result is the specification's function of its argument, and the argument is left as launched.
-/
import proofs.«102476_j61151744360729_1_alg».proof.Proof.Region
import Idealize.ShloMosaic.Lib.StableHlo.Run

set_option maxRecDepth 16384

noncomputable section

namespace Cert.FrameStep.Result

open Cert.KernelIdeal Cert.KernelIdeal.Gen
open Idealize.ShloMosaic Idealize.ShloMosaic.TcCoe Idealize.ShloMosaic.ValueIdx Idealize.SL.Sem
open Cert.FrameStep Cert.FrameStep.Entry Cert.FrameStep.Region

variable (m : (ℓ : Loc nD τ sig) → Buf (Elt Ideal) ℓ) (ρ : Dev nD → PrngReg)

/-- The flat result reshaped to four axes is the specification's function. -/
theorem unflatten (x : FVec Ideal S512x1024x25x3 .f32) :
    shapeCast S512x1024x25x3 (Gflat x) shapeCasts_S512x1024x75_S512x1024x25x3 = G x := by
  funext j
  obtain ⟨b, s, n, k, rfl⟩ : ∃ (b : Fin 512) (s : Fin 1024) (n : Fin 25) (k : Fin 3), j = ix4 b s n k :=
    ⟨j 0, j 1, j 2, j 3, eq_ix4 j⟩
  refine (shapeCast_apply (Gflat x) shapeCasts_S512x1024x75_S512x1024x25x3 (ix4 b s n k) (ix3 b s (chanOf n k)) ?_).trans ?_
  · rw [Shape.rowMajor_val_three, Shape.rowMajor_val_four]
    show (b.val * 1024 + s.val) * 75 + (3 * n.val + k.val) = ((b.val * 1024 + s.val) * 25 + n.val) * 3 + k.val
    omega
  · rw [Gflat_ix3, nodeOf_chanOf, coordOf_chanOf, G_ix4]

/-- What the lines after the region leave in the program's result buffer. -/
theorem tail_eq (c : Dev nD) (hx : ∀ i, ∃ r : ℝ, inArr m c i = (r : EReal)) :
    Pipeline.afterTail₀ cfgs (dats m) 0 (V0 m) [hostOps1] c main_v12 = G (inArr m c) := by
  unfold Pipeline.afterTail₀
  show StableHlo.after hostOps1 _ (Proc.devRef .tc main_v12) = _
  after_results
  have hw : Pipeline.withArrays (cfgs 0).spec c (V0 m c) (fun w => (dats m 0 c).arrAt w (cfgs 0).N) (Proc.devRef .tc main_v11)
      = Gflat (inArr m c) :=
    (Pipeline.withArrays_arr spec0 launch0.win.arr_inj c _ _ 3).trans (final3 m c hx)
  rw [hw]
  exact unflatten (inArr m c)

/-- THE RUN of the idealized kernel program, re-posted: every weakly fair execution terminates with the result buffer
    at the specification's function of the argument, the argument as launched — when the argument's entries are real. -/
theorem run (hx : ∀ c i, ∃ r : ℝ, inArr m c i = (r : EReal)) :
    θ_run defs (onTc (τ := τ) (main (F := Ideal))) ⟨m, fun _ => 0, ρ⟩ (fun r => ∀ c : Dev nD,
      r.2.mem ((c.tc : Thread nD τ).loc main_v12) = G (inArr m c)
      ∧ r.2.mem ((c.tc : Thread nD τ).loc main_arg0) = m ((c.tc : Thread nD τ).loc main_arg0)) :=
  (θ_run defs _ _).mono (fun r h c =>
      ⟨((h c).2 main_v12 (Pipeline.mem_restRefs_of main_v12 (by decide) (by decide))).trans (tail_eq m c (hx c)),
       ((h c).2 main_arg0 (Pipeline.mem_restRefs_of main_arg0 (by decide) (by decide))).trans (W_main_arg0 m (dats m) c)⟩)
    (run_main m ρ)

end Cert.FrameStep.Result

end
-- ==== Proof.RefSide.lean ====
/-
  The reference program's result is the function `G` of the specification.

  The reference slices frames 1..1023 and 0..1022, subtracts, squares, sums the three coordinates from a zero start,
  takes the square root, appends a zero column for the last frame and adds the result back over the three coordinates:
  read at (b, s, n, c) that is x[b, s, n, c] + sqrt (0 + sum_k (x[b, 1 + s, n, k] - x[b, s, n, k])^2) for s < 1023 and
  x[b, 1023, n, c] + 0 at the last frame. No finiteness is needed on this side.
-/
import proofs.«102476_j61151744360729_1_alg».proof.Proof.Gen.ReferenceIdeal.Read
import proofs.«102476_j61151744360729_1_alg».proof.Proof.Spec
import Idealize.ShloMosaic.Lib.ValueIdx
import Idealize.ShloMosaic.Lib.Pipeline.Value
import Idealize.ShloMosaic.PureOps.Ideal.Laws

noncomputable section

namespace Cert.FrameStep.Reference

open Cert.ReferenceIdeal Cert.ReferenceIdeal.Read
open Idealize.ShloMosaic Idealize.ShloMosaic.ValueIdx

/-- The distance stage at a frame that has a successor: the square root of the sum of the squared coordinate
    differences between the successor frame and the frame. -/
theorem v5_at (x : FVec Ideal S512x1024x25x3 .f32) (b : Fin 512) (s : Fin 1024) (h : s.val < 1023) (n : Fin 25) :
    val_main_v5 (F := Ideal) x (ix3 b (⟨s.val, h⟩ : Fin 1023) n) = Ideal.sqrt (Cert.FrameStep.stepSq x b s n) := by
  rw [val_main_v5_apply, Ideal.hostUnary_sqrt_def, val_main_v4_apply, val_main_cst_apply, Ideal.ofBits_def, Ideal.ofBits_zero_f32, zero_add]
  -- the sum starts from the zero word, which is the real number zero, so it is the bare sum over the three coordinates
  unfold Cert.FrameStep.stepSq
  refine congrArg Ideal.sqrt (Finset.sum_congr rfl fun k _ => ?_)
  rw [val_main_v3_apply, val_main_v2_apply, val_main_v0_apply, val_main_v1_apply]
  -- the slice that starts at frame one reads frame 1 + s, the successor of s since s < 1023
  have e0 : idx_main_v0 (idx_main_v4 (ix3 b (⟨s.val, h⟩ : Fin 1023) n) k) = ix4 b (Cert.FrameStep.nxt s) n k :=
    funext fun a => Fin.ext (by
      match a with
      | ⟨0, _⟩ => rfl
      | ⟨1, _⟩ => show 1 + s.val = (Cert.FrameStep.nxt s).val; rw [Cert.FrameStep.nxt_val_of_lt h]; omega
      | ⟨2, _⟩ => rfl
      | ⟨3, _⟩ => rfl)
  -- the slice that starts at frame zero reads frame s itself
  have e1 : idx_main_v1 (idx_main_v4 (ix3 b (⟨s.val, h⟩ : Fin 1023) n) k) = ix4 b s n k :=
    funext fun a => Fin.ext (by
      match a with
      | ⟨0, _⟩ => rfl
      | ⟨1, _⟩ => rfl
      | ⟨2, _⟩ => rfl
      | ⟨3, _⟩ => rfl)
  rw [e0, e1]
  rfl

/-- The joined array at a frame that has a successor reads the distance stage there. -/
theorem v8_left (x : FVec Ideal S512x1024x25x3 .f32) (b : Fin 512) (s : Fin 1024) (h : s.val < 1023) (n : Fin 25) :
    val_main_v8 (F := Ideal) x (ix3 b s n) = val_main_v5 (F := Ideal) x (ix3 b (⟨s.val, h⟩ : Fin 1023) n) := by
  unfold val_main_v8
  exact concatenate_pair_apply_left (t := S512x1024x25) (s₁ := S512x1023x25) (s₂ := S512x1x25) (1 : Fin 3) _ _ _ (ix3 b s n) rfl (ix3 b (⟨s.val, h⟩ : Fin 1023) n)
    (fun a => by
      match a with
      | ⟨0, _⟩ => rfl
      | ⟨1, _⟩ => rfl
      | ⟨2, _⟩ => rfl)

/-- The joined array at the last frame reads the appended zero column. -/
theorem v8_right (x : FVec Ideal S512x1024x25x3 .f32) (b : Fin 512) (s : Fin 1024) (h : ¬ s.val < 1023) (n : Fin 25) :
    val_main_v8 (F := Ideal) x (ix3 b s n) = 0 := by
  unfold val_main_v8
  refine (concatenate_pair_apply_right (t := S512x1024x25) (s₁ := S512x1023x25) (s₂ := S512x1x25) (1 : Fin 3) _ _ _ (ix3 b s n) rfl rfl (ix3 b (0 : Fin 1) n)
    (fun a ha => by
      match a with
      | ⟨0, _⟩ => rfl
      | ⟨1, _⟩ => exact absurd rfl ha
      | ⟨2, _⟩ => rfl)
    (by show (0 : Nat) + 1023 = s.val; have := s.isLt; omega)).trans ?_
  -- the appended column is the broadcast of the zero word
  rw [val_main_v7_apply, val_main_cst_0_apply, Ideal.ofBits_def, Ideal.ofBits_zero_f32]

/-- The reference's last stage is `G` of its argument. -/
theorem ref_eq_G (x : FVec Ideal S512x1024x25x3 .f32) : val_main_v11 (F := Ideal) x = Cert.FrameStep.G x := by
  funext j
  obtain ⟨b, s, n, c, rfl⟩ : ∃ (b : Fin 512) (s : Fin 1024) (n : Fin 25) (c : Fin 3), j = ix4 b s n c :=
    ⟨j 0, j 1, j 2, j 3, eq_ix4 j⟩
  rw [Cert.FrameStep.G_ix4]
  unfold Cert.FrameStep.Gat
  rw [val_main_v11_apply, val_main_v10_apply, val_main_v9_apply, Ideal.addf_def]
  refine congrArg (x (ix4 b s n c) + ·) ?_
  -- the two broadcasts drop the coordinate axis: the added term at (b, s, n, c) is the joined array at (b, s, n)
  have e9 : idx_main_v9 (idx_main_v10 (ix4 b s n c)) = ix3 b s n :=
    funext fun a => Fin.ext (by
      match a with
      | ⟨0, _⟩ => rfl
      | ⟨1, _⟩ => rfl
      | ⟨2, _⟩ => rfl)
  rw [e9]
  -- below the last frame the joined array is the distance; at the last frame it is the zero column
  by_cases h : s.val < 1023
  · rw [if_pos h, v8_left x b s h n, v5_at x b s h n]
  · rw [if_neg h, v8_right x b s h n]

end Cert.FrameStep.Reference

end
-- ==== Proof.Finite.lean ====
/-
  The precondition read at an entry: every entry of the input is a real number.

  The printed precondition is `all (|x| < +inf)`: an and-reduction over all four axes of the elementwise comparison
  of the absolute value with the f32 word of +infinity. When it is one, each comparison is one, and an extended real
  whose absolute value is below +infinity is neither infinity: it is a real.
-/
import proofs.«102476_j61151744360729_1_alg».proof.Proof.Gen.Pre_finite_inputs
import Idealize.ShloMosaic.Lib.ValueIdx
import Idealize.ShloMosaic.Lib.ReduceAll
import Idealize.ShloMosaic.PureOps.Ideal.Laws

noncomputable section

namespace Cert.FrameStep.Finite

open Idealize.ShloMosaic Idealize.ShloMosaic.ValueIdx

/-- The scalar shape has one index. -/
instance : Subsingleton Cert.Pre_finite_inputs.S_.Idx := ⟨fun a b => funext fun d => d.elim0⟩

/-- The f32 word with exponent field all ones and fraction zero is +infinity. -/
theorem ofBits_inf_f32 : Ideal.ofBits .f32 0x7F800000#32 = (⊤ : EReal) := by
  simp [Ideal.ofBits, Ideal.ieee]

/-- An extended real whose absolute value is below +infinity is a real number. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- Under the precondition every entry is a real number. -/
theorem real_of_pre [Cert.Pre_finite_inputs.Facts] (x : FVec Ideal Cert.Pre_finite_inputs.S512x1024x25x3 .f32)
    (h : Cert.Pre_finite_inputs.fn (F := Ideal) x = fun _ => 1#1) : ∀ i, ∃ r : ℝ, x i = (r : EReal) := by
  intro i
  -- the and-reduction over all axes is one at its only index, so the comparison is one at every entry
  have h0 := congrFun h ValueIdx.ix0
  dsimp only [Cert.Pre_finite_inputs.fn] at h0
  have hi := Host.reduce_andi_all _ _ _ _ _ h0 i
  -- at the entry i the comparison is |x i| < the word 0x7F800000, which is +infinity
  have hc : Ideal.cmp .olt (max (x i) (-(x i))) (Ideal.ofBits .f32 0x7F800000#32) = 1#1 := hi
  rw [ofBits_inf_f32] at hc
  refine real_of_abs_lt_top (x i) ?_
  -- were |x i| not below +infinity the comparison would be zero, not one
  by_contra hlt
  have : Ideal.cmp .olt (max (x i) (-(x i))) (⊤ : EReal) = 0#1 := by
    simp only [Ideal.cmp, decide_eq_false hlt]; rfl
  rw [this] at hc
  exact absurd hc (by decide)

end Cert.FrameStep.Finite

end
-- ==== Proof.lean ====
/-
  A kernel that adds to every coordinate of a node the Euclidean distance the node moves to the next frame, against
  its jnp reference, over the extended reals.

  The input x[b, s, n, c] is 512 sequences of 1024 frames of 25 nodes with 3 coordinates. Both programs compute

      x[b, s, n, c] + sqrt (sum_k (x[b, s+1, n, k] - x[b, s, n, k])^2)   for s < 1023,   x[b, 1023, n, c] at the last frame

  (`Cert.FrameStep.G`, Proof/Spec.lean). The reference does it with slices, a sum over the coordinate axis, a square
  root and an appended zero column (Proof/RefSide.lean). The kernel works on the flat layout, channel f = 3 n + c, in
  blocks of 4 sequences: it pairs each frame with its successor (the last frame with itself), squares the differences,
  sums each node's three channels by a product with a 0/1 selection matrix the host builds from integer iotas
  (Proof/Entry.lean reads the matrix's entries: one at (f, n) iff f / 3 = n), takes the square root and spreads it back
  over the node's channels by the product with the transposed matrix (Proof/SelSum.lean: both products are exact sums on
  the extended reals; Proof/Payload.lean: the stored value at an index). The 128 blocks tile the flat result
  (Proof/Region.lean) and the host reshapes it back (Proof/Result.lean).

  The two sides differ only at the last frame, where the kernel has sqrt (sum_k (a_k - a_k)^2) and the reference a
  literal zero: equal when the entries are real numbers, which is what the precondition says of them
  (Proof/Finite.lean). The idealization rewrote nothing, so the kernel's idealization claim is `True`.
-/
import proofs.«102476_j61151744360729_1_alg».proof.Defs
import proofs.«102476_j61151744360729_1_alg».proof.Proof.Gen.Kernel
import proofs.«102476_j61151744360729_1_alg».proof.Proof.Gen.Kernel.Skeleton
import proofs.«102476_j61151744360729_1_alg».proof.Proof.Gen.Kernel.Launch
import proofs.«102476_j61151744360729_1_alg».proof.Proof.Gen.Kernel.Points
import proofs.«102476_j61151744360729_1_alg».proof.Proof.Gen.Kernel.Frame
import proofs.«102476_j61151744360729_1_alg».proof.Proof.Gen.KernelIdeal
import proofs.«102476_j61151744360729_1_alg».proof.Proof.Gen.KernelIdeal.Skeleton
import proofs.«102476_j61151744360729_1_alg».proof.Proof.Gen.KernelIdeal.Launch
import proofs.«102476_j61151744360729_1_alg».proof.Proof.Gen.KernelIdeal.Points
import proofs.«102476_j61151744360729_1_alg».proof.Proof.Gen.KernelIdeal.Frame
import proofs.«102476_j61151744360729_1_alg».proof.Proof.Gen.ReferenceIdeal
import proofs.«102476_j61151744360729_1_alg».proof.Proof.Gen.ReferenceIdeal.Run
import proofs.«102476_j61151744360729_1_alg».proof.Proof.Gen.ReferenceIdeal.Read
import proofs.«102476_j61151744360729_1_alg».proof.Proof.Gen.Pre_finite_inputs
import proofs.«102476_j61151744360729_1_alg».proof.Proof.Result
import proofs.«102476_j61151744360729_1_alg».proof.Proof.RefSide
import proofs.«102476_j61151744360729_1_alg».proof.Proof.Finite
import Idealize.ShloMosaic.Adequacy
import Idealize.ShloMosaic.Init

noncomputable section

namespace Cert.Proof

open Idealize.ShloMosaic Idealize.SL.Sem

/-- The three programs run, fault-free, and leave the argument as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From agreeing, finite arguments both idealized programs end with the specification's function of the argument. -/
theorem algebraic : Cert.algebraic_KernelIdeal_ReferenceIdeal := by
  intro m ρ m' ρ' hpre hagree
  have hx : ∀ c i, ∃ r : ℝ, Cert.FrameStep.Entry.inArr m c i = (r : EReal) :=
    fun c => Cert.FrameStep.Finite.real_of_pre _ (hpre c)
  refine ⟨fun c => Cert.FrameStep.G (Cert.FrameStep.Entry.inArr m c), Cert.FrameStep.Result.run m ρ hx, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.FrameStep.Reference.ref_eq_G, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
